-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel

variable [Facts]

def fn {F : FTy → Type} [FloatOps F] (main_arg0 : FVec F S32x2048 .f32) (main_arg1 : FVec F S32x2048 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S32x2048 .f32 := Host.absf main_arg1
  let main_cst_0 : FVec F S_ .f32 := constant S_ .f32 0x7F800000#32
  let main_v5 : FVec F S32x2048 .f32 := broadcastInDim S32x2048 ![] bcast_S_S32x2048 main_cst_0
  let main_v6 : IVec S32x2048 1 := cmpf .olt main_v4 main_v5
  let main_c_1 : IVec S_ 1 := constantI S_ 1 1#1
  let main_v7 : IVec S_ 1 := (fun x v => Host.reduce IntOp.andi x v reducesTo_S32x2048_S_d0_1 h_S_) main_v6 main_c_1
  let main_v8 : IVec S_ 1 := andi main_v3 main_v7
  main_v8
-- ==== Kernel.lean ====
abbrev S32x2048 : Shape := ⟨2, ![32, 2048]⟩
abbrev S1x1 : Shape := ⟨2, ![1, 1]⟩
abbrev S32x128 : Shape := ⟨2, ![32, 128]⟩
abbrev S32x128x1 : Shape := ⟨3, ![32, 128, 1]⟩
abbrev S32x1x128 : Shape := ⟨3, ![32, 1, 128]⟩
abbrev S32x128x128 : Shape := ⟨3, ![32, 128, 128]⟩
abbrev S128x128 : Shape := ⟨2, ![128, 128]⟩
abbrev S1x128x128 : Shape := ⟨3, ![1, 128, 128]⟩
abbrev S32 : Shape := ⟨1, ![32]⟩
abbrev S1x32 : Shape := ⟨2, ![1, 32]⟩
abbrev S1 : Shape := ⟨1, ![1]⟩
abbrev S_ : Shape := ⟨0, ![]⟩

abbrev nBuf : Space → Nat
  | .hbm => 6
  | .vmem => 3
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S32x2048, .f32⟩
  | .local _ .vmem, ⟨1, _⟩ => ⟨S32x2048, .f32⟩
  | .local _ .vmem, ⟨2, _⟩ => ⟨S1x1, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg0 : BitVec 32 := BitVec.ofNat 32 (i 0).val
  let arg1 : BitVec 32 := BitVec.ofNat 32 (i 1).val
  let v5 : BitVec 1 := Scalar.cmpi .sle arg0 arg1
  let v6 : BitVec 32 := Scalar.extui v5
  let c0_i32_2 : BitVec 32 := 0#32
  let v7 : BitVec 1 := Scalar.cmpi .ne v6 c0_i32_2
  v7

def k0_mult1 (i : grid0.Coords) : BitVec 32 :=
  let arg0 : BitVec 32 := BitVec.ofNat 32 (i 0).val
  let c128_i32 : BitVec 32 := 128#32
  let v8 : BitVec 32 := Scalar.muli arg0 c128_i32
  v8
def k0_mult2 (i : grid0.Coords) : BitVec 32 :=
  let arg1 : BitVec 32 := BitVec.ofNat 32 (i 1).val
  let c128_i32_3 : BitVec 32 := 128#32
  let v10 : BitVec 32 := Scalar.muli arg1 c128_i32_3
  v10
def k0_off1 (i : grid0.Coords) : Fin 2 → Nat :=
  let c0 : Index := 0#32
  let arg0 : BitVec 32 := BitVec.ofNat 32 (i 0).val
  let c128_i32 : BitVec 32 := 128#32
  let v8 : BitVec 32 := Scalar.muli arg0 c128_i32
  let v9 : BitVec 32 := v8
  let v12 : Index := Scalar.indexCast v9
  ![0, v12.toNat]
def k0_off2 (i : grid0.Coords) : Fin 2 → Nat :=
  let c0_5 : Index := 0#32
  let arg1 : BitVec 32 := BitVec.ofNat 32 (i 1).val
  let c128_i32_3 : BitVec 32 := 128#32
  let v10 : BitVec 32 := Scalar.muli arg1 c128_i32_3
  let v11 : BitVec 32 := v10
  let v16 : Index := Scalar.indexCast v11
  ![0, v16.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1x1_S1x1_0_0 : ∀ a, (![0, 0] : Fin 2 → Nat) a + S1x1.size a ≤ S1x1.size a
  h_S1x1 : 0 < S1x1.numel
  h_S32x128 : 0 < S32x128.numel
  shapeCasts_S32x128_S32x128x1 : S32x128.ShapeCasts S32x128x1
  shapeCasts_S32x128_S32x1x128 : S32x128.ShapeCasts S32x1x128
  broadcasts_S32x128x1_S32x128x128 : S32x128x1.Broadcasts S32x128x128
  broadcasts_S32x1x128_S32x128x128 : S32x1x128.Broadcasts S32x128x128
  iota_S128x128_d0_w32 : S128x128.Iotas .tc 32 [0]
  iota_S128x128_d1_w32 : S128x128.Iotas .tc 32 [1]
  natLt_1_32 : 1 < 32
  shapeCasts_S128x128_S1x128x128 : S128x128.ShapeCasts S1x128x128
  broadcasts_S1x128x128_S32x128x128 : S1x128x128.Broadcasts S32x128x128
  reduces_S32x128x128_S32x128 : S32x128x128.Reduces [2] S32x128
  reduces_S32x128_S32 : S32x128.Reduces [1] S32
  shapeCasts_S32_S1x32 : S32.ShapeCasts S1x32
  reduces_S1x32_S1 : S1x32.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  hrank0 : 0 < grid0.rank
  k0_mult1_dvd : ∀ i : grid0.Coords, ∀ (k0_h2 : k0_cond2 i = 1#1), 128 ∣ (k0_mult1 i).toNat
  k0_mult2_dvd : ∀ i : grid0.Coords, ∀ (k0_h2 : k0_cond2 i = 1#1), 128 ∣ (k0_mult2 i).toNat
  k0_off1_inb : ∀ i : grid0.Coords, ∀ (k0_h2 : k0_cond2 i = 1#1), ∀ a, (k0_off1 i) a + S32x128.size a ≤ S32x2048.size a
  k0_off2_inb : ∀ i : grid0.Coords, ∀ (k0_h2 : k0_cond2 i = 1#1), ∀ a, (k0_off2 i) a + S32x128.size a ≤ S32x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .f32 = 32 ∨ (Rect.block (s := S32x2048) S32x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S32x2048.size a
  hwx0_1 : ∀ i : grid0.Coords, EltTy.bits .f32 = 32 ∨ (Rect.block (s := S32x2048) S32x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S32x2048 : Shape := ⟨2, ![32, 2048]⟩
abbrev S32x2048x1 : Shape := ⟨3, ![32, 2048, 1]⟩
abbrev S32x1x2048 : Shape := ⟨3, ![32, 1, 2048]⟩
abbrev S32x2048x2048 : Shape := ⟨3, ![32, 2048, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S32x2048, .f32⟩
  | .hbm, ⟨3, _⟩ => ⟨S32x2048x1, .f32⟩
  | .hbm, ⟨4, _⟩ => ⟨S32x1x2048, .f32⟩
  | .hbm, ⟨5, _⟩ => ⟨S32x2048x2048, .f32⟩
  | .hbm, ⟨6, _⟩ => ⟨S32x2048x2048, .f32⟩
  | .hbm, ⟨7, _⟩ => ⟨S32x2048x2048, .f32⟩
  | .hbm, ⟨8, _⟩ => ⟨S_, .f32⟩
  | .hbm, ⟨9, _⟩ => ⟨S2048x2048, .f32⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S32x2048x2048, .f32⟩
  | .hbm, ⟨20, _⟩ => ⟨S1x2048x2048, .f32⟩
  | .hbm, ⟨21, _⟩ => ⟨S32x2048x2048, .f32⟩
  | .hbm, ⟨22, _⟩ => ⟨S32x2048x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_cst : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩

abbrev nD : Nat := 1
abbrev τ : Topo := Topo.v7x

variable {F : FTy → Type} [FloatOps F]

class Facts₀ : Prop where
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S32x2048x2048_0_1_2 : S1x2048x2048.BroadcastsInDim S32x2048x2048 (![0, 1, 2] : Fin 3 → Fin S32x2048x2048.rank)
  reducesTo_S32x2048x2048_S_d0_1_2 : S32x2048x2048.ReducesTo [0, 1, 2] S_
  h_S_ : 0 < S_.numel

variable [Facts₀]

class Facts : Prop extends Facts₀ where

variable [Facts]
-- ==== Proof.KRunsBits.lean ====
/-
  The kernel body, run once per control case.

  The body has two independent conditionals on the grid point `(i₀, i₁)`: "first point" (`i₀ = 0 ∧ i₁ = 0`), under
  which the 1 × 1 accumulator is reset to zero, and "tile on or above the diagonal" (`i₀ ≤ i₁`), under which four
  32 × 128 blocks are loaded, the accumulator is loaded, and accumulator + tile sum is stored back. Over the 16 × 16
  grid three combinations occur: both (the first point only), the second alone (every other tile with `i₀ ≤ i₁`),
  neither (the tiles strictly below the diagonal, where the body touches nothing). Each run below is the body's
  triple in that case on arbitrary whole staging memrefs; what the accumulator's memref ends holding is recorded as
  the list of pieces the stores wrote.
-/
import proofs.«177686_j58935541235978_1_alg».proof.Proof.Gen.Kernel.Frame
import proofs.«177686_j58935541235978_1_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions over the grid -/

/-- The reset condition holds at the first point only. -/
theorem c1_iff : ∀ t : Fin cfg0.N, k0_cond1 (grid0.coords t) = 1#1 ↔ t.val = 0 :=
  (by decide +kernel : ∀ t : Fin grid0.N, k0_cond1 (grid0.coords t) = 1#1 ↔ t.val = 0)
/-- The accumulate condition holds exactly on and above the diagonal of the row-major 16 × 16 grid. -/
theorem c2_iff : ∀ t : Fin cfg0.N, k0_cond2 (grid0.coords t) = 1#1 ↔ t.val / 16 ≤ t.val % 16 :=
  (by decide +kernel : ∀ t : Fin grid0.N, k0_cond2 (grid0.coords t) = 1#1 ↔ t.val / 16 ≤ t.val % 16)
/-- A point's tile coordinates: row-major. -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- Where the accumulator's window is live (the body stores into it) and where idle, as the configuration states it. -/
theorem live2_of_c2 : ∀ t : Fin cfg0.N, k0_cond2 (grid0.coords t) = 1#1 → cfg0.idle 2 (grid0.coords t) = false :=
  (by decide +kernel : ∀ t : Fin grid0.N, k0_cond2 (grid0.coords t) = 1#1 → cfg0.idle 2 (grid0.coords t) = false)
theorem idle2_of_not : ∀ t : Fin cfg0.N, ¬k0_cond1 (grid0.coords t) = 1#1 → ¬k0_cond2 (grid0.coords t) = 1#1 → cfg0.idle 2 (grid0.coords t) = true :=
  (by decide +kernel : ∀ t : Fin grid0.N, ¬k0_cond1 (grid0.coords t) = 1#1 → ¬k0_cond2 (grid0.coords t) = 1#1 → cfg0.idle 2 (grid0.coords t) = true)
theorem live0 : ∀ t : Fin cfg0.N, cfg0.idle 0 (grid0.coords t) = false := by decide +kernel
theorem live1 : ∀ t : Fin cfg0.N, cfg0.idle 1 (grid0.coords t) = false := by decide +kernel

/-! ## Staging memrefs -/

/-- One staging buffer of the accumulator's window, through which its contents are stated. -/
abbrev VO2 : View sig .tc .vmem S1x1 .f32 := (Memref.whole cc0_stg2_0 : Memref sig .tc .vmem S1x1 .f32).view
/-- Each window's current staging memref at point `t`, as the pipeline passes it, and its wholeness. -/
abbrev ms0 (t : Fin cfg0.N) : Memref sig .tc .vmem S32x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

/-! ## The runs -/

set_option maxHeartbeats 1000000 in
/-- FIRST POINT (both conditions hold): the accumulator's memref, at anything, is reset and then accumulated into. -/
noncomputable def runFirst (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : k0_cond1 i = 1#1) (hc2 : k0_cond2 i = 1#1) (x0 x1 : Vec F S32x2048 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__mpse_kernel i arg2 harg2 arg3 harg3 arg4 harg4) K } := by
  refine ⟨?_, fun E K => ?run⟩
  case run =>
    simp only [cc0__mpse_kernel_eq_skeleton]; unfold cc0__mpse_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A LATER TILE ON OR ABOVE THE DIAGONAL (only the second condition holds): the accumulator's memref, at its running
    contents `xo`, is loaded and stored back with the tile's sum added. -/
noncomputable def runAcc (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : ¬k0_cond1 i = 1#1) (hc2 : k0_cond2 i = 1#1) (x0 x1 : Vec F S32x2048 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__mpse_kernel i arg2 harg2 arg3 harg3 arg4 harg4) K } := by
  refine ⟨?_, fun E K => ?run⟩
  case run =>
    simp only [cc0__mpse_kernel_eq_skeleton]; unfold cc0__mpse_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- A TILE BELOW THE DIAGONAL (neither condition holds): the body touches nothing, so whatever it is handed it hands back. -/
theorem runSkip (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : ¬k0_cond1 i = 1#1) (hc2 : ¬k0_cond2 i = 1#1) (P : sProp 𝕄) (E : Set ℕ) (K : PUnit → sProp 𝕄) :
    iprop(P ∗ (P -∗ K ⟨⟩))
      ⊢ wp frame (wpE (defs₀ (F := F)) Variants.none c none) E (cc0__mpse_kernel i arg2 harg2 arg3 harg3 arg4 harg4) K := by
  simp only [cc0__mpse_kernel_eq_skeleton]; unfold cc0__mpse_kernel_skel
  iintro ⟨HP, Hk⟩
  sl_exec (disch := first | exact hc1 | exact hc2)
  sl_step
  iapply Hk
  iexact HP

end Cert.Kernel.Hand

end
-- ==== Proof.KBodyBits.lean ====
/-
  The frame of the kernel program: the proof data of its one pipeline, the body obligation at every grid point, the
  launch, and the frame claim.

  The 1 × 1 accumulator window has a constant block index, so its staging buffer is carried from point to point and
  written back once, after the last point. What it holds after point `n` is defined by recursion on the point
  (`acc`): at the first point what the reset-then-accumulate case leaves; at a later tile on or above the diagonal
  what the accumulate case leaves over the contents of the point before; at a tile below the diagonal, where the
  body touches nothing and the window is idle, the contents of the point before unchanged. The buffer the body finds
  at a point after the first is therefore `acc` of the point before, however many idle points lie between
  (`before2`, by induction through the idle points).
-/
import proofs.«177686_j58935541235978_1_alg».proof.Proof.KRunsBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each storing case leaves in the accumulator's buffer -/

/-- The first point's stores (the reset, then the accumulating store) cover the 1 × 1 block. -/
theorem coverFirst (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : k0_cond1 i = 1#1) (hc2 : k0_cond2 i = 1#1) (x0 x1 : Vec F S32x2048 .f32) (y : S1x1.Idx) :
    ∃ pc ∈ (runFirst c i arg2 harg2 arg3 harg3 arg4 harg4 hc1 hc2 x0 x1).1, y ∈ pc.1.set :=
  View.cover_of_tiledL (runFirst c i arg2 harg2 arg3 harg3 arg4 harg4 hc1 hc2 x0 x1).1 S1x1.size (by sl_kernel_rfl) y

/-- What the first point leaves: its pieces read back. -/
def outFirst (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : k0_cond1 i = 1#1) (hc2 : k0_cond2 i = 1#1) (x0 x1 : Vec F S32x2048 .f32) : Vec F S1x1 .f32 :=
  VO2.read (Elt F) (VO2.writes (Elt F) VO2.junk (runFirst c i arg2 harg2 arg3 harg3 arg4 harg4 hc1 hc2 x0 x1).1)

/-- An accumulating point's one store covers the 1 × 1 block. -/
theorem coverAcc (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : ¬k0_cond1 i = 1#1) (hc2 : k0_cond2 i = 1#1) (x0 x1 : Vec F S32x2048 .f32) (xo : Vec F S1x1 .f32) (y : S1x1.Idx) :
    ∃ pc ∈ (runAcc c i arg2 harg2 arg3 harg3 arg4 harg4 hc1 hc2 x0 x1 xo).1, y ∈ pc.1.set :=
  View.cover_of_tiledL (runAcc c i arg2 harg2 arg3 harg3 arg4 harg4 hc1 hc2 x0 x1 xo).1 S1x1.size (by sl_kernel_rfl) y

/-- What an accumulating point leaves over the running contents `xo`: its piece read back. -/
def outAcc (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : ¬k0_cond1 i = 1#1) (hc2 : k0_cond2 i = 1#1) (x0 x1 : Vec F S32x2048 .f32) (xo : Vec F S1x1 .f32) : Vec F S1x1 .f32 :=
  VO2.read (Elt F) (VO2.writes (Elt F) VO2.junk (runAcc c i arg2 harg2 arg3 harg3 arg4 harg4 hc1 hc2 x0 x1 xo).1)

/-! ## The accumulator's contents after each point -/

/-- The first point meets both conditions. -/
theorem c1_zero (h : 0 < cfg0.N) : k0_cond1 (grid0.coords ⟨0, h⟩) = 1#1 := (c1_iff ⟨0, h⟩).mpr rfl
theorem c2_zero (h : 0 < cfg0.N) : k0_cond2 (grid0.coords ⟨0, h⟩) = 1#1 := (c2_iff ⟨0, h⟩).mpr (by show 0 / 16 ≤ 0 % 16; decide)
/-- A later point does not meet the reset condition. -/
theorem not_c1_succ (n : ℕ) (h : n + 1 < cfg0.N) : ¬k0_cond1 (grid0.coords ⟨n + 1, h⟩) = 1#1 :=
  fun hc => absurd ((c1_iff ⟨n + 1, h⟩).mp hc) (Nat.succ_ne_zero n)

/-- THE RUNNING CONTENTS of the accumulator's staging buffer after the body at position `n`. -/
def acc (c : Dev nD) : (n : ℕ) → n < cfg0.N → Vec F S1x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      (c1_zero hn) (c2_zero hn) (iblk m c 0 ⟨0, hn⟩) (iblk m c 1 ⟨0, hn⟩)
  | n + 1, hn =>
    if h2 : k0_cond2 (grid0.coords ⟨n + 1, hn⟩) = 1#1 then
      outAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (not_c1_succ n hn) h2 (iblk m c 0 ⟨n + 1, hn⟩) (iblk m c 1 ⟨n + 1, hn⟩) (acc c n (Nat.lt_of_succ_lt hn))
    else acc c n (Nat.lt_of_succ_lt hn)

theorem acc_zero (c : Dev nD) (hn : 0 < cfg0.N) :
    acc m c 0 hn = outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      (c1_zero hn) (c2_zero hn) (iblk m c 0 ⟨0, hn⟩) (iblk m c 1 ⟨0, hn⟩) := rfl

theorem acc_live (c : Dev nD) (n : ℕ) (hn : n + 1 < cfg0.N) (h2 : k0_cond2 (grid0.coords ⟨n + 1, hn⟩) = 1#1) :
    acc m c (n + 1) hn = outAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
      (not_c1_succ n hn) h2 (iblk m c 0 ⟨n + 1, hn⟩) (iblk m c 1 ⟨n + 1, hn⟩) (acc m c n (Nat.lt_of_succ_lt hn)) :=
  (dif_pos h2).trans rfl

theorem acc_idle (c : Dev nD) (n : ℕ) (hn : n + 1 < cfg0.N) (h2 : ¬k0_cond2 (grid0.coords ⟨n + 1, hn⟩) = 1#1) :
    acc m c (n + 1) hn = acc m c n (Nat.lt_of_succ_lt hn) :=
  (dif_neg h2).trans rfl

/-! ## The pipeline's proof data -/

/-- The proof data of the one pipeline on core `c`: the arrays as the region finds them; after the body at point `t`
    each input's buffer at its block and the accumulator's at `acc`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = acc m c t.val t.isLt := by dsimp only [dats]

/-- Each input's current staging buffer holds its (whole-array) block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The accumulator's block is written back after the last point only, so not after point `n` when `n + 1` is a point. -/
theorem noFlush2 (n : ℕ) (hn : n + 1 < cfg0.N) : (cfg0.win 2).flush ⟨n, Nat.lt_of_succ_lt hn⟩ = false :=
  Bool.eq_false_iff.mpr fun h => by
    have hN : cfg0.N = 256 := N_0
    have := (flush0_2 ⟨n, Nat.lt_of_succ_lt hn⟩).mp h
    dsimp only at this; omega

/-- At a point after the first the accumulator's buffer holds what the point before left, `acc` there — directly if
    that point stored, and through the run of idle points before it otherwise. -/
theorem before2 (c : Dev nD) : ∀ (n : ℕ) (hn : n + 1 < cfg0.N) (d),
    (dats m 0 c).before 2 ⟨n + 1, hn⟩ d = acc m c n (Nat.lt_of_succ_lt hn)
  | n, hn, d => by
    rw [Dat.before_of_pos _ 2 ⟨n + 1, hn⟩ (Nat.succ_ne_zero n) ((cfg0.win 2).fetch_out rfl _)]
    show (if (cfg0.win 2).flush ⟨n, Nat.lt_of_succ_lt hn⟩ = true then d else (dats m 0 c).left 2 ⟨n, Nat.lt_of_succ_lt hn⟩ d) = _
    rw [noFlush2 n hn, if_neg Bool.false_ne_true]
    unfold Dat.left
    by_cases h2 : k0_cond2 (grid0.coords ⟨n, Nat.lt_of_succ_lt hn⟩) = 1#1
    · rw [live2_of_c2 _ h2]
      dsimp only
      unfold Dat.kept
      rw [Pipeline.fill_of_clip_none 2 _ (fun _ => rfl) d ((dats m 0 c).after 2 ⟨n, Nat.lt_of_succ_lt hn⟩), Window.fill_cut, after2]
    · cases n with
      | zero => exact absurd (c2_zero _) h2
      | succ k =>
        rw [idle2_of_not _ (not_c1_succ k _) h2]
        dsimp only
        rw [before2 c k (Nat.lt_of_succ_lt hn) d, acc_idle m c k _ h2]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2_live (c : Dev nD) (t : Fin cfg0.N) (h2 : k0_cond2 (grid0.coords t) = 1#1) :
    (dats m 0 c).leavesExact 2 t = owns (c : Thread nD τ) (ms2 t) fullShare (acc m c t.val t.isLt) := by
  unfold Dat.leavesExact; rw [live2_of_c2 t h2, after2]

set_option maxHeartbeats 1600000 in
/-- The body at any point: the inputs' memrefs hold their blocks; the two conditions say which case the point is in;
    at an accumulating point after the first the accumulator's buffer holds `acc` of the point before; at an idle
    point everything is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    leaves0, leaves1]
  have hN : cfg0.N = 256 := N_0
  obtain ⟨n, hn⟩ := t
  by_cases h2 : k0_cond2 (grid0.coords ⟨n, hn⟩) = 1#1
  · rw [leaves2_live m c ⟨n, hn⟩ h2]
    cases n with
    | zero =>
      rw [acc_zero]
      unfold outFirst
      iintro ⟨HΦ, Ho, ⟨%d0, H0⟩, ⟨%d1, H1⟩, ⟨%d2, H2⟩⟩
      iapply ((runFirst c (grid0.coords ⟨0, hn⟩) _ _ _ _ _ _ (c1_zero hn) (c2_zero hn) (iblk m c 0 ⟨0, hn⟩) (iblk m c 1 ⟨0, hn⟩)).2 Set.univ _)
      isplitl [H0]; · iexact H0
      isplitl [H1]; · iexact H1
      isplitl [H2]; · iexists _; iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (coverFirst c _ _ _ _ _ _ _ _ _ _ _)
    | succ k =>
      rw [acc_live m c k hn h2]
      simp only [before2 m c k hn]
      unfold outAcc
      iintro ⟨HΦ, Ho, ⟨%d0, H0⟩, ⟨%d1, H1⟩, ⟨%d2, H2⟩⟩
      iapply ((runAcc c (grid0.coords ⟨k + 1, hn⟩) _ _ _ _ _ _ (not_c1_succ k hn) h2 (iblk m c 0 ⟨k + 1, hn⟩) (iblk m c 1 ⟨k + 1, hn⟩) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (coverAcc c _ _ _ _ _ _ _ _ _ _ _ _)
  · cases n with
    | zero => exact absurd (c2_zero hn) h2
    | succ k =>
      have hfl : (cfg0.win 2).flush ⟨k + 1, hn⟩ = false := Bool.eq_false_iff.mpr fun h => by
        have h255 := (flush0_2 ⟨k + 1, hn⟩).mp h
        have := (c2_iff ⟨k + 1, hn⟩).not.mp h2
        dsimp only at h255 this; omega
      rw [Dat.leavesExact_idle (dats m 0 c) 2 ⟨k + 1, hn⟩ (idle2_of_not _ (not_c1_succ k hn) h2) hfl]
      iintro ⟨HΦ, Ho, ⟨%d0, H0⟩, ⟨%d1, H1⟩, H2⟩
      iapply (runSkip c (grid0.coords ⟨k + 1, hn⟩) _ _ _ _ _ _ (not_c1_succ k hn) h2
        iprop((dats m 0 c).Φ (Fin.castSucc ⟨k + 1, hn⟩) ∗ (dats m 0 c).owesAt () (Fin.castSucc ⟨k + 1, hn⟩)
          ∗ owns (c : Thread nD τ) (ms0 ⟨k + 1, hn⟩) fullShare (iblk m c 0 ⟨k + 1, hn⟩)
          ∗ owns (c : Thread nD τ) (ms1 ⟨k + 1, hn⟩) fullShare (iblk m c 1 ⟨k + 1, hn⟩)
          ∗ (∃ d, owns (c : Thread nD τ) (ms2 ⟨k + 1, hn⟩) fullShare ((dats m 0 c).before 2 ⟨k + 1, hn⟩ d))) Set.univ _)
      isplitl [HΦ Ho H0 H1 H2]
      · isplitl [HΦ]; · iexact HΦ
        isplitl [Ho]; · iexact Ho
        isplitl [H0]; · iexact H0
        isplitl [H1]; · iexact H1
        iexact H2
      iintro H; iexact H

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`: the run terminates without a fault and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KRuns.lean ====
/-
  The kernel body, run once per control case.

  The body has two independent conditionals on the grid point `(i₀, i₁)`: "first point" (`i₀ = 0 ∧ i₁ = 0`), under
  which the 1 × 1 accumulator is reset to zero, and "tile on or above the diagonal" (`i₀ ≤ i₁`), under which four
  32 × 128 blocks are loaded, the accumulator is loaded, and accumulator + tile sum is stored back. Over the 16 × 16
  grid three combinations occur: both (the first point only), the second alone (every other tile with `i₀ ≤ i₁`),
  neither (the tiles strictly below the diagonal, where the body touches nothing). Each run below is the body's
  triple in that case on arbitrary whole staging memrefs; what the accumulator's memref ends holding is recorded as
  the list of pieces the stores wrote.
-/
import proofs.«177686_j58935541235978_1_alg».proof.Proof.Gen.KernelIdeal.Frame
import proofs.«177686_j58935541235978_1_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions over the grid -/

/-- The reset condition holds at the first point only. -/
theorem c1_iff : ∀ t : Fin cfg0.N, k0_cond1 (grid0.coords t) = 1#1 ↔ t.val = 0 :=
  (by decide +kernel : ∀ t : Fin grid0.N, k0_cond1 (grid0.coords t) = 1#1 ↔ t.val = 0)
/-- The accumulate condition holds exactly on and above the diagonal of the row-major 16 × 16 grid. -/
theorem c2_iff : ∀ t : Fin cfg0.N, k0_cond2 (grid0.coords t) = 1#1 ↔ t.val / 16 ≤ t.val % 16 :=
  (by decide +kernel : ∀ t : Fin grid0.N, k0_cond2 (grid0.coords t) = 1#1 ↔ t.val / 16 ≤ t.val % 16)
/-- A point's tile coordinates: row-major. -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- Where the accumulator's window is live (the body stores into it) and where idle, as the configuration states it. -/
theorem live2_of_c2 : ∀ t : Fin cfg0.N, k0_cond2 (grid0.coords t) = 1#1 → cfg0.idle 2 (grid0.coords t) = false :=
  (by decide +kernel : ∀ t : Fin grid0.N, k0_cond2 (grid0.coords t) = 1#1 → cfg0.idle 2 (grid0.coords t) = false)
theorem idle2_of_not : ∀ t : Fin cfg0.N, ¬k0_cond1 (grid0.coords t) = 1#1 → ¬k0_cond2 (grid0.coords t) = 1#1 → cfg0.idle 2 (grid0.coords t) = true :=
  (by decide +kernel : ∀ t : Fin grid0.N, ¬k0_cond1 (grid0.coords t) = 1#1 → ¬k0_cond2 (grid0.coords t) = 1#1 → cfg0.idle 2 (grid0.coords t) = true)
theorem live0 : ∀ t : Fin cfg0.N, cfg0.idle 0 (grid0.coords t) = false := by decide +kernel
theorem live1 : ∀ t : Fin cfg0.N, cfg0.idle 1 (grid0.coords t) = false := by decide +kernel

/-! ## Staging memrefs -/

/-- One staging buffer of the accumulator's window, through which its contents are stated. -/
abbrev VO2 : View sig .tc .vmem S1x1 .f32 := (Memref.whole cc0_stg2_0 : Memref sig .tc .vmem S1x1 .f32).view
/-- Each window's current staging memref at point `t`, as the pipeline passes it, and its wholeness. -/
abbrev ms0 (t : Fin cfg0.N) : Memref sig .tc .vmem S32x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

/-! ## The runs -/

set_option maxHeartbeats 1000000 in
/-- FIRST POINT (both conditions hold): the accumulator's memref, at anything, is reset and then accumulated into. -/
noncomputable def runFirst (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : k0_cond1 i = 1#1) (hc2 : k0_cond2 i = 1#1) (x0 x1 : Vec F S32x2048 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__mpse_kernel i arg2 harg2 arg3 harg3 arg4 harg4) K } := by
  refine ⟨?_, fun E K => ?run⟩
  case run =>
    simp only [cc0__mpse_kernel_eq_skeleton]; unfold cc0__mpse_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A LATER TILE ON OR ABOVE THE DIAGONAL (only the second condition holds): the accumulator's memref, at its running
    contents `xo`, is loaded and stored back with the tile's sum added. -/
noncomputable def runAcc (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : ¬k0_cond1 i = 1#1) (hc2 : k0_cond2 i = 1#1) (x0 x1 : Vec F S32x2048 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__mpse_kernel i arg2 harg2 arg3 harg3 arg4 harg4) K } := by
  refine ⟨?_, fun E K => ?run⟩
  case run =>
    simp only [cc0__mpse_kernel_eq_skeleton]; unfold cc0__mpse_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- A TILE BELOW THE DIAGONAL (neither condition holds): the body touches nothing, so whatever it is handed it hands back. -/
theorem runSkip (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : ¬k0_cond1 i = 1#1) (hc2 : ¬k0_cond2 i = 1#1) (P : sProp 𝕄) (E : Set ℕ) (K : PUnit → sProp 𝕄) :
    iprop(P ∗ (P -∗ K ⟨⟩))
      ⊢ wp frame (wpE (defs₀ (F := F)) Variants.none c none) E (cc0__mpse_kernel i arg2 harg2 arg3 harg3 arg4 harg4) K := by
  simp only [cc0__mpse_kernel_eq_skeleton]; unfold cc0__mpse_kernel_skel
  iintro ⟨HP, Hk⟩
  sl_exec (disch := first | exact hc1 | exact hc2)
  sl_step
  iapply Hk
  iexact HP

end Cert.KernelIdeal.Hand

end
-- ==== Proof.KBody.lean ====
/-
  The frame of the kernel program: the proof data of its one pipeline, the body obligation at every grid point, the
  launch, and the frame claim.

  The 1 × 1 accumulator window has a constant block index, so its staging buffer is carried from point to point and
  written back once, after the last point. What it holds after point `n` is defined by recursion on the point
  (`acc`): at the first point what the reset-then-accumulate case leaves; at a later tile on or above the diagonal
  what the accumulate case leaves over the contents of the point before; at a tile below the diagonal, where the
  body touches nothing and the window is idle, the contents of the point before unchanged. The buffer the body finds
  at a point after the first is therefore `acc` of the point before, however many idle points lie between
  (`before2`, by induction through the idle points).
-/
import proofs.«177686_j58935541235978_1_alg».proof.Proof.KRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each storing case leaves in the accumulator's buffer -/

/-- The first point's stores (the reset, then the accumulating store) cover the 1 × 1 block. -/
theorem coverFirst (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : k0_cond1 i = 1#1) (hc2 : k0_cond2 i = 1#1) (x0 x1 : Vec F S32x2048 .f32) (y : S1x1.Idx) :
    ∃ pc ∈ (runFirst c i arg2 harg2 arg3 harg3 arg4 harg4 hc1 hc2 x0 x1).1, y ∈ pc.1.set :=
  View.cover_of_tiledL (runFirst c i arg2 harg2 arg3 harg3 arg4 harg4 hc1 hc2 x0 x1).1 S1x1.size (by sl_kernel_rfl) y

/-- What the first point leaves: its pieces read back. -/
def outFirst (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : k0_cond1 i = 1#1) (hc2 : k0_cond2 i = 1#1) (x0 x1 : Vec F S32x2048 .f32) : Vec F S1x1 .f32 :=
  VO2.read (Elt F) (VO2.writes (Elt F) VO2.junk (runFirst c i arg2 harg2 arg3 harg3 arg4 harg4 hc1 hc2 x0 x1).1)

/-- An accumulating point's one store covers the 1 × 1 block. -/
theorem coverAcc (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : ¬k0_cond1 i = 1#1) (hc2 : k0_cond2 i = 1#1) (x0 x1 : Vec F S32x2048 .f32) (xo : Vec F S1x1 .f32) (y : S1x1.Idx) :
    ∃ pc ∈ (runAcc c i arg2 harg2 arg3 harg3 arg4 harg4 hc1 hc2 x0 x1 xo).1, y ∈ pc.1.set :=
  View.cover_of_tiledL (runAcc c i arg2 harg2 arg3 harg3 arg4 harg4 hc1 hc2 x0 x1 xo).1 S1x1.size (by sl_kernel_rfl) y

/-- What an accumulating point leaves over the running contents `xo`: its piece read back. -/
def outAcc (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : ¬k0_cond1 i = 1#1) (hc2 : k0_cond2 i = 1#1) (x0 x1 : Vec F S32x2048 .f32) (xo : Vec F S1x1 .f32) : Vec F S1x1 .f32 :=
  VO2.read (Elt F) (VO2.writes (Elt F) VO2.junk (runAcc c i arg2 harg2 arg3 harg3 arg4 harg4 hc1 hc2 x0 x1 xo).1)

/-! ## The accumulator's contents after each point -/

/-- The first point meets both conditions. -/
theorem c1_zero (h : 0 < cfg0.N) : k0_cond1 (grid0.coords ⟨0, h⟩) = 1#1 := (c1_iff ⟨0, h⟩).mpr rfl
theorem c2_zero (h : 0 < cfg0.N) : k0_cond2 (grid0.coords ⟨0, h⟩) = 1#1 := (c2_iff ⟨0, h⟩).mpr (by show 0 / 16 ≤ 0 % 16; decide)
/-- A later point does not meet the reset condition. -/
theorem not_c1_succ (n : ℕ) (h : n + 1 < cfg0.N) : ¬k0_cond1 (grid0.coords ⟨n + 1, h⟩) = 1#1 :=
  fun hc => absurd ((c1_iff ⟨n + 1, h⟩).mp hc) (Nat.succ_ne_zero n)

/-- THE RUNNING CONTENTS of the accumulator's staging buffer after the body at position `n`. -/
def acc (c : Dev nD) : (n : ℕ) → n < cfg0.N → Vec F S1x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      (c1_zero hn) (c2_zero hn) (iblk m c 0 ⟨0, hn⟩) (iblk m c 1 ⟨0, hn⟩)
  | n + 1, hn =>
    if h2 : k0_cond2 (grid0.coords ⟨n + 1, hn⟩) = 1#1 then
      outAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (not_c1_succ n hn) h2 (iblk m c 0 ⟨n + 1, hn⟩) (iblk m c 1 ⟨n + 1, hn⟩) (acc c n (Nat.lt_of_succ_lt hn))
    else acc c n (Nat.lt_of_succ_lt hn)

theorem acc_zero (c : Dev nD) (hn : 0 < cfg0.N) :
    acc m c 0 hn = outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      (c1_zero hn) (c2_zero hn) (iblk m c 0 ⟨0, hn⟩) (iblk m c 1 ⟨0, hn⟩) := rfl

theorem acc_live (c : Dev nD) (n : ℕ) (hn : n + 1 < cfg0.N) (h2 : k0_cond2 (grid0.coords ⟨n + 1, hn⟩) = 1#1) :
    acc m c (n + 1) hn = outAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
      (not_c1_succ n hn) h2 (iblk m c 0 ⟨n + 1, hn⟩) (iblk m c 1 ⟨n + 1, hn⟩) (acc m c n (Nat.lt_of_succ_lt hn)) :=
  (dif_pos h2).trans rfl

theorem acc_idle (c : Dev nD) (n : ℕ) (hn : n + 1 < cfg0.N) (h2 : ¬k0_cond2 (grid0.coords ⟨n + 1, hn⟩) = 1#1) :
    acc m c (n + 1) hn = acc m c n (Nat.lt_of_succ_lt hn) :=
  (dif_neg h2).trans rfl

/-! ## The pipeline's proof data -/

/-- The proof data of the one pipeline on core `c`: the arrays as the region finds them; after the body at point `t`
    each input's buffer at its block and the accumulator's at `acc`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = acc m c t.val t.isLt := by dsimp only [dats]

/-- Each input's current staging buffer holds its (whole-array) block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The accumulator's block is written back after the last point only, so not after point `n` when `n + 1` is a point. -/
theorem noFlush2 (n : ℕ) (hn : n + 1 < cfg0.N) : (cfg0.win 2).flush ⟨n, Nat.lt_of_succ_lt hn⟩ = false :=
  Bool.eq_false_iff.mpr fun h => by
    have hN : cfg0.N = 256 := N_0
    have := (flush0_2 ⟨n, Nat.lt_of_succ_lt hn⟩).mp h
    dsimp only at this; omega

/-- At a point after the first the accumulator's buffer holds what the point before left, `acc` there — directly if
    that point stored, and through the run of idle points before it otherwise. -/
theorem before2 (c : Dev nD) : ∀ (n : ℕ) (hn : n + 1 < cfg0.N) (d),
    (dats m 0 c).before 2 ⟨n + 1, hn⟩ d = acc m c n (Nat.lt_of_succ_lt hn)
  | n, hn, d => by
    rw [Dat.before_of_pos _ 2 ⟨n + 1, hn⟩ (Nat.succ_ne_zero n) ((cfg0.win 2).fetch_out rfl _)]
    show (if (cfg0.win 2).flush ⟨n, Nat.lt_of_succ_lt hn⟩ = true then d else (dats m 0 c).left 2 ⟨n, Nat.lt_of_succ_lt hn⟩ d) = _
    rw [noFlush2 n hn, if_neg Bool.false_ne_true]
    unfold Dat.left
    by_cases h2 : k0_cond2 (grid0.coords ⟨n, Nat.lt_of_succ_lt hn⟩) = 1#1
    · rw [live2_of_c2 _ h2]
      dsimp only
      unfold Dat.kept
      rw [Pipeline.fill_of_clip_none 2 _ (fun _ => rfl) d ((dats m 0 c).after 2 ⟨n, Nat.lt_of_succ_lt hn⟩), Window.fill_cut, after2]
    · cases n with
      | zero => exact absurd (c2_zero _) h2
      | succ k =>
        rw [idle2_of_not _ (not_c1_succ k _) h2]
        dsimp only
        rw [before2 c k (Nat.lt_of_succ_lt hn) d, acc_idle m c k _ h2]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2_live (c : Dev nD) (t : Fin cfg0.N) (h2 : k0_cond2 (grid0.coords t) = 1#1) :
    (dats m 0 c).leavesExact 2 t = owns (c : Thread nD τ) (ms2 t) fullShare (acc m c t.val t.isLt) := by
  unfold Dat.leavesExact; rw [live2_of_c2 t h2, after2]

set_option maxHeartbeats 1600000 in
/-- The body at any point: the inputs' memrefs hold their blocks; the two conditions say which case the point is in;
    at an accumulating point after the first the accumulator's buffer holds `acc` of the point before; at an idle
    point everything is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    leaves0, leaves1]
  have hN : cfg0.N = 256 := N_0
  obtain ⟨n, hn⟩ := t
  by_cases h2 : k0_cond2 (grid0.coords ⟨n, hn⟩) = 1#1
  · rw [leaves2_live m c ⟨n, hn⟩ h2]
    cases n with
    | zero =>
      rw [acc_zero]
      unfold outFirst
      iintro ⟨HΦ, Ho, ⟨%d0, H0⟩, ⟨%d1, H1⟩, ⟨%d2, H2⟩⟩
      iapply ((runFirst c (grid0.coords ⟨0, hn⟩) _ _ _ _ _ _ (c1_zero hn) (c2_zero hn) (iblk m c 0 ⟨0, hn⟩) (iblk m c 1 ⟨0, hn⟩)).2 Set.univ _)
      isplitl [H0]; · iexact H0
      isplitl [H1]; · iexact H1
      isplitl [H2]; · iexists _; iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (coverFirst c _ _ _ _ _ _ _ _ _ _ _)
    | succ k =>
      rw [acc_live m c k hn h2]
      simp only [before2 m c k hn]
      unfold outAcc
      iintro ⟨HΦ, Ho, ⟨%d0, H0⟩, ⟨%d1, H1⟩, ⟨%d2, H2⟩⟩
      iapply ((runAcc c (grid0.coords ⟨k + 1, hn⟩) _ _ _ _ _ _ (not_c1_succ k hn) h2 (iblk m c 0 ⟨k + 1, hn⟩) (iblk m c 1 ⟨k + 1, hn⟩) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (coverAcc c _ _ _ _ _ _ _ _ _ _ _ _)
  · cases n with
    | zero => exact absurd (c2_zero hn) h2
    | succ k =>
      have hfl : (cfg0.win 2).flush ⟨k + 1, hn⟩ = false := Bool.eq_false_iff.mpr fun h => by
        have h255 := (flush0_2 ⟨k + 1, hn⟩).mp h
        have := (c2_iff ⟨k + 1, hn⟩).not.mp h2
        dsimp only at h255 this; omega
      rw [Dat.leavesExact_idle (dats m 0 c) 2 ⟨k + 1, hn⟩ (idle2_of_not _ (not_c1_succ k hn) h2) hfl]
      iintro ⟨HΦ, Ho, ⟨%d0, H0⟩, ⟨%d1, H1⟩, H2⟩
      iapply (runSkip c (grid0.coords ⟨k + 1, hn⟩) _ _ _ _ _ _ (not_c1_succ k hn) h2
        iprop((dats m 0 c).Φ (Fin.castSucc ⟨k + 1, hn⟩) ∗ (dats m 0 c).owesAt () (Fin.castSucc ⟨k + 1, hn⟩)
          ∗ owns (c : Thread nD τ) (ms0 ⟨k + 1, hn⟩) fullShare (iblk m c 0 ⟨k + 1, hn⟩)
          ∗ owns (c : Thread nD τ) (ms1 ⟨k + 1, hn⟩) fullShare (iblk m c 1 ⟨k + 1, hn⟩)
          ∗ (∃ d, owns (c : Thread nD τ) (ms2 ⟨k + 1, hn⟩) fullShare ((dats m 0 c).before 2 ⟨k + 1, hn⟩ d))) Set.univ _)
      isplitl [HΦ Ho H0 H1 H2]
      · isplitl [HΦ]; · iexact HΦ
        isplitl [Ho]; · iexact Ho
        isplitl [H0]; · iexact H0
        isplitl [H1]; · iexact H1
        iexact H2
      iintro H; iexact H

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`: the run terminates without a fault and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.PairSpec.lean ====
/-
  The loss both programs compute, stated once over plain finite index types.

  For a 32 × 2048 array `d` (the difference outputs − targets) the quantity is the sum, over the batch row `b` and over
  all ordered pairs of columns `P < Q`, of `(d b P − d b Q)²`; the strict-upper-triangle restriction is carried by the
  indicator `upper P Q` (one when `P < Q`, zero otherwise), so the sum may run over ALL pairs `(P, Q)`.
  The kernel walks the 16 × 16 grid of 128-column tiles in row-major order, skips the tiles strictly below the diagonal
  (every pair in them has `Q < P`), and adds each remaining tile's partial sum `blockSum` to a running total that starts
  at zero: `chain`. That the running total after the last tile is the whole sum is `chain_eq_total` (PairSum.lean).
-/
import Idealize.ShloMosaic.PureOps.Ideal
import Idealize.ShloMosaic.Lib.ValueIdx

noncomputable section

open scoped BigOperators

namespace Cert.Pairs

open Idealize.ShloMosaic Idealize.ShloMosaic.ValueIdx

/-- The indicator of the strict upper triangle: one when `P < Q`, zero otherwise. -/
def upper (P Q : ℕ) : EReal := if P < Q then 1 else 0

/-- Column `p` of tile `i` is column `128 i + p` of the array. -/
def colIdx (i : Fin 16) (p : Fin 128) : Fin 2048 := ⟨128 * i.val + p.val, by have := i.isLt; have := p.isLt; omega⟩

/-- One ordered pair's contribution: the squared difference of the two columns' entries, kept only above the diagonal. -/
def pairTerm (d : Fin 32 → Fin 2048 → EReal) (b : Fin 32) (P Q : Fin 2048) : EReal :=
  (d b P - d b Q) * (d b P - d b Q) * upper P.val Q.val

/-- The whole sum: every batch row, every ordered pair of columns. -/
def total (d : Fin 32 → Fin 2048 → EReal) : EReal :=
  ∑ b : Fin 32, ∑ P : Fin 2048, ∑ Q : Fin 2048, pairTerm d b P Q

/-- Tile `(i, j)`'s partial sum: every batch row, rows of the tile, columns of the tile. -/
def blockSum (d : Fin 32 → Fin 2048 → EReal) (i j : Fin 16) : EReal :=
  ∑ b : Fin 32, ∑ p : Fin 128, ∑ q : Fin 128, pairTerm d b (colIdx i p) (colIdx j q)

/-- The tile row of grid point `n` (row-major over 16 × 16). -/
def rowOf (n : ℕ) : Fin 16 := ⟨n / 16 % 16, Nat.mod_lt _ (by decide)⟩
/-- The tile column of grid point `n`. -/
def colOf (n : ℕ) : Fin 16 := ⟨n % 16, Nat.mod_lt _ (by decide)⟩

/-- The running total after grid point `n`: zero plus the first tile's sum, then each tile on or above the diagonal added
    in turn, a tile below the diagonal leaving the total as it was. -/
def chain (d : Fin 32 → Fin 2048 → EReal) : ℕ → EReal
  | 0 => 0 + blockSum d (rowOf 0) (colOf 0)
  | n + 1 => if rowOf (n + 1) ≤ colOf (n + 1) then chain d n + blockSum d (rowOf (n + 1)) (colOf (n + 1)) else chain d n

/-- The difference array of two 32 × 2048 arrays of extended reals, by coordinates. -/
def dOf (x0 x1 : (⟨2, ![32, 2048]⟩ : Shape).Idx → EReal) (b : Fin 32) (P : Fin 2048) : EReal :=
  x0 (ix2 b P) - x1 (ix2 b P)

end Cert.Pairs

end
-- ==== Proof.KPay.lean ====
/-
  What the kernel body stores, read at an index over the extended reals.

  At a grid point with tile coordinates `(i₀, i₁)` the body loads four 32 × 128 blocks (outputs and targets at the tile
  row's columns, outputs and targets at the tile column's columns), forms the two difference blocks, broadcasts them
  against each other to a 32 × 128 × 128 cube of differences, squares it, multiplies by the strict-upper-triangle
  indicator of the GLOBAL column indices `128 i₀ + p < 128 i₁ + q`, and sums the cube over `q`, then `p`, then the
  batch row; the 1 × 1 result it stores is the accumulator it loaded plus that sum.
-/
import proofs.«177686_j58935541235978_1_alg».proof.Proof.PairSpec
import proofs.«177686_j58935541235978_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.KernelIdeal.Hand

open Idealize.ShloMosaic Idealize.ShloMosaic.ValueIdx Cert.KernelIdeal Cert.KernelIdeal.Gen

/-! ## The three broadcasts read at a cube index -/

/-- A 32 × 128 block viewed 32 × 128 × 1 and broadcast along the last axis reads its own `(b, p)` entry. -/
private theorem bcastRow_apply (d : FVec Ideal S32x128 .f32) (h1 : S32x128.ShapeCasts S32x128x1)
    (h2 : S32x128x1.Broadcasts S32x128x128) (b : Fin 32) (p q : Fin 128) :
    broadcastTo S32x128x128 (shapeCast S32x128x1 d h1) h2 (ix3 b p q) = d (ix2 b p) := by
  refine (broadcastTo_apply _ h2 (ix3 b p q) (ix3 b p 0) fun a => ?_).trans ?_
  · match a with
    | ⟨0, _⟩ => rfl
    | ⟨1, _⟩ => rfl
    | ⟨2, _⟩ => rfl
  · refine shapeCast_apply d h1 (ix3 b p 0) (ix2 b p) ?_
    rw [Shape.rowMajor_val_two, Shape.rowMajor_val_three]
    show b.val * 128 + p.val = (b.val * 128 + p.val) * 1 + 0
    omega

/-- A 32 × 128 block viewed 32 × 1 × 128 and broadcast along the middle axis reads its own `(b, q)` entry. -/
private theorem bcastCol_apply (d : FVec Ideal S32x128 .f32) (h1 : S32x128.ShapeCasts S32x1x128)
    (h2 : S32x1x128.Broadcasts S32x128x128) (b : Fin 32) (p q : Fin 128) :
    broadcastTo S32x128x128 (shapeCast S32x1x128 d h1) h2 (ix3 b p q) = d (ix2 b q) := by
  refine (broadcastTo_apply _ h2 (ix3 b p q) (ix3 b 0 q) fun a => ?_).trans ?_
  · match a with
    | ⟨0, _⟩ => rfl
    | ⟨1, _⟩ => rfl
    | ⟨2, _⟩ => rfl
  · refine shapeCast_apply d h1 (ix3 b 0 q) (ix2 b q) ?_
    rw [Shape.rowMajor_val_two, Shape.rowMajor_val_three]
    show b.val * 128 + q.val = (b.val * 1 + 0) * 128 + q.val
    omega

/-- A 128 × 128 block viewed 1 × 128 × 128 and broadcast along the first axis reads its own `(p, q)` entry. -/
private theorem bcastMask_apply (m : FVec Ideal S128x128 .f32) (h1 : S128x128.ShapeCasts S1x128x128)
    (h2 : S1x128x128.Broadcasts S32x128x128) (b : Fin 32) (p q : Fin 128) :
    broadcastTo S32x128x128 (shapeCast S1x128x128 m h1) h2 (ix3 b p q) = m (ix2 p q) := by
  refine (broadcastTo_apply _ h2 (ix3 b p q) (ix3 0 p q) fun a => ?_).trans ?_
  · match a with
    | ⟨0, _⟩ => rfl
    | ⟨1, _⟩ => rfl
    | ⟨2, _⟩ => rfl
  · refine shapeCast_apply m h1 (ix3 0 p q) (ix2 p q) ?_
    rw [Shape.rowMajor_val_two, Shape.rowMajor_val_three]
    show p.val * 128 + q.val = (0 * 128 + p.val) * 128 + q.val
    omega

/-! ## The three lane sums -/

/-- The sum over the last axis of a 32 × 128 × 128 cube, at `(b, p)`. -/
private theorem sumQ_apply (X : FVec Ideal S32x128x128 .f32) (h : S32x128x128.Reduces [2] S32x128) (hφ : FKind.Formats .f32)
    (hacc : (0x00000000#32 : BitVec 32) = FKind.add.neutral .f32 hφ) (b : Fin 32) (p : Fin 128) :
    multiReduction (F := Ideal) .add [2] S32x128 X 0x00000000#32 h hφ hacc (ix2 b p) = ∑ q : Fin 128, X (ix3 b p q) := by
  refine (Ideal.multiReduction_add_single X _ h hφ hacc (ix2 b p)).trans ?_
  refine Finset.sum_congr rfl fun q _ => congrArg X ?_
  funext c
  match c with
  | ⟨0, _⟩ => rfl
  | ⟨1, _⟩ => rfl
  | ⟨2, _⟩ => rfl

/-- The sum over the last axis of a 32 × 128 block, at `b`. -/
private theorem sumP_apply (X : FVec Ideal S32x128 .f32) (h : S32x128.Reduces [1] S32) (hφ : FKind.Formats .f32)
    (hacc : (0x00000000#32 : BitVec 32) = FKind.add.neutral .f32 hφ) (b : Fin 32) :
    multiReduction (F := Ideal) .add [1] S32 X 0x00000000#32 h hφ hacc (ix1 b) = ∑ p : Fin 128, X (ix2 b p) := by
  refine (Ideal.multiReduction_add_single X _ h hφ hacc (ix1 b)).trans ?_
  refine Finset.sum_congr rfl fun p _ => congrArg X ?_
  funext c
  match c with
  | ⟨0, _⟩ => rfl
  | ⟨1, _⟩ => rfl

/-- The sum over the last axis of a 1 × 32 block, at its one index. -/
private theorem sumB_apply (X : FVec Ideal S1x32 .f32) (h : S1x32.Reduces [1] S1) (hφ : FKind.Formats .f32)
    (hacc : (0x00000000#32 : BitVec 32) = FKind.add.neutral .f32 hφ) (z : Fin 1) :
    multiReduction (F := Ideal) .add [1] S1 X 0x00000000#32 h hφ hacc (ix1 z) = ∑ b : Fin 32, X (ix2 z b) := by
  refine (Ideal.multiReduction_add_single X _ h hφ hacc (ix1 z)).trans ?_
  refine Finset.sum_congr rfl fun b _ => congrArg X ?_
  funext c
  match c with
  | ⟨0, _⟩ => rfl
  | ⟨1, _⟩ => rfl

/-! ## The mask -/

/-- A tile's column origin plus a lane does not wrap: the word is the natural number. -/
private theorem colWord_toNat (t c : ℕ) (ht : t < 16) (hc : c < 128) :
    (Scalar.muli (BitVec.ofNat 32 t) 128#32 + BitVec.ofNat 32 c).toNat = 128 * t + c := by
  show (BitVec.ofNat 32 t * 128#32 + BitVec.ofNat 32 c).toNat = 128 * t + c
  rw [BitVec.toNat_add, BitVec.toNat_mul, BitVec.toNat_ofNat, BitVec.toNat_ofNat, BitVec.toNat_ofNat]
  omega

/-- The signed compare of two global column numbers, widened and converted, is the strict-upper-triangle indicator. -/
private theorem mask_word (t u c e : ℕ) (ht : t < 16) (hu : u < 16) (hc : c < 128) (he : e < 128) :
    FloatOps.sitofp (F := Ideal) .f32
        ((IntOp.cmpi .slt (Scalar.muli (BitVec.ofNat 32 t) 128#32 + BitVec.ofNat 32 c)
          (Scalar.muli (BitVec.ofNat 32 u) 128#32 + BitVec.ofNat 32 e)).setWidth 32)
      = Cert.Pairs.upper (128 * t + c) (128 * u + e) := by
  have hA := colWord_toNat t c ht hc
  have hB := colWord_toNat u e hu he
  have hiff := StableHlo.Predicate.slt_iff_toNat
    (a := Scalar.muli (BitVec.ofNat 32 t) 128#32 + BitVec.ofNat 32 c)
    (b := Scalar.muli (BitVec.ofNat 32 u) 128#32 + BitVec.ofNat 32 e) (by omega) (by omega)
  rw [hA, hB] at hiff
  unfold Cert.Pairs.upper
  by_cases hlt : 128 * t + c < 128 * u + e
  · rw [hiff.mpr hlt, if_pos hlt]
    show (((((1#1 : BitVec 1).setWidth 32).toInt : ℤ) : ℝ) : EReal) = 1
    rw [show ((1#1 : BitVec 1).setWidth 32).toInt = 1 from by decide]
    simp
  · rw [eq_zero_of_ne_one (mt hiff.mp hlt), if_neg hlt]
    show (((((0#1 : BitVec 1).setWidth 32).toInt : ℤ) : ℝ) : EReal) = 0
    rw [show ((0#1 : BitVec 1).setWidth 32).toInt = 0 from by decide]
    simp

/-- The converted mask block at `(p, q)`. -/
private theorem mask_apply (i : grid0.Coords) (hi0 : S128x128.Iotas .tc 32 [0]) (hi1 : S128x128.Iotas .tc 32 [1]) (hw : 1 < 32)
    (p q : Fin 128) :
    (sitofp .f32 (extui 32 (cmpi .slt
        (addi (broadcast S128x128 (Scalar.muli (BitVec.ofNat 32 (i 0).val) 128#32)) (iota .tc S128x128 32 [0] hi0))
        (addi (broadcast S128x128 (Scalar.muli (BitVec.ofNat 32 (i 1).val) 128#32)) (iota .tc S128x128 32 [1] hi1))) hw)
      : FVec Ideal S128x128 .f32) (ix2 p q)
      = Cert.Pairs.upper (128 * (i 0).val + p.val) (128 * (i 1).val + q.val) := by
  have e0 : iota .tc S128x128 32 [0] hi0 (ix2 p q) = BitVec.ofNat 32 p.val := iota_single_apply .tc S128x128 32 0 hi0 (ix2 p q)
  have e1 : iota .tc S128x128 32 [1] hi1 (ix2 p q) = BitVec.ofNat 32 q.val := iota_single_apply .tc S128x128 32 1 hi1 (ix2 p q)
  show FloatOps.sitofp (F := Ideal) .f32
      ((IntOp.cmpi .slt (Scalar.muli (BitVec.ofNat 32 (i 0).val) 128#32 + iota .tc S128x128 32 [0] hi0 (ix2 p q))
        (Scalar.muli (BitVec.ofNat 32 (i 1).val) 128#32 + iota .tc S128x128 32 [1] hi1 (ix2 p q))).setWidth 32) = _
  rw [e0, e1]
  exact mask_word _ _ _ _ (i 0).isLt (i 1).isLt p.isLt q.isLt

/-- The reset stores the zero block. -/
theorem pay1_apply (y : S1x1.Idx) : k0_pay1 (F := Ideal) y = 0 := by
  show Ideal.ofBits .f32 0x00000000#32 = 0
  exact Ideal.ofBits_zero_f32

/-- The accumulating store's payload at its one index: the loaded accumulator plus the tile's masked sum of squared
    differences, over the four loaded blocks. -/
theorem pay2_apply (i : grid0.Coords) (v13 v15 v17 v19 : Vec Ideal S32x128 .f32) (v46 : Vec Ideal S1x1 .f32) (y : S1x1.Idx) :
    k0_pay2 (F := Ideal) i v13 v15 v17 v19 v46 y
      = v46 y + ∑ b : Fin 32, ∑ p : Fin 128, ∑ q : Fin 128,
          ((v13 (ix2 b p) - v15 (ix2 b p)) - (v17 (ix2 b q) - v19 (ix2 b q)))
            * ((v13 (ix2 b p) - v15 (ix2 b p)) - (v17 (ix2 b q) - v19 (ix2 b q)))
            * Cert.Pairs.upper (128 * (i 0).val + p.val) (128 * (i 1).val + q.val) := by
  unfold k0_pay2
  rw [addf_apply, shapeCast_self, broadcast_apply]
  congr 1
  unfold extractAt
  refine (shapeCast_apply _ shapeCasts_S1_S1x1 _ (ix1 (0 : Fin 1)) ?_).trans ?_
  · rw [Shape.rowMajor_val_one, Shape.rowMajor_val_two]
    rfl
  refine (sumB_apply _ _ _ _ 0).trans ?_
  refine Finset.sum_congr rfl fun b _ => ?_
  refine (shapeCast_apply _ shapeCasts_S32_S1x32 (ix2 0 b) (ix1 b) ?_).trans ?_
  · rw [Shape.rowMajor_val_one, Shape.rowMajor_val_two]
    show b.val = 0 * 32 + b.val
    omega
  refine (sumP_apply _ _ _ _ b).trans ?_
  refine Finset.sum_congr rfl fun p _ => ?_
  refine (sumQ_apply _ _ _ _ b p).trans ?_
  refine Finset.sum_congr rfl fun q _ => ?_
  rw [mulf_apply, mulf_apply, subf_apply, bcastRow_apply, bcastCol_apply, bcastMask_apply, subf_apply, subf_apply, mask_apply]

end Cert.KernelIdeal.Hand

end
-- ==== Proof.KValue.lean ====
/-
  The value of the kernel program over the extended reals: its result is the running total after the last grid
  point, divided by the pair count.

  Each storing case's contents are read back from its pieces: the first point leaves zero plus the first tile's sum,
  a later accumulating point leaves the running contents plus its tile's sum, both as the stored payload over the
  blocks the body loaded. The loaded blocks are columns `128 i₀ …` and `128 i₁ …` of the two argument arrays (each
  input window's block is the whole array), so by induction on the point the accumulator holds the running total
  `Cert.Pairs.chain` of the difference array; the one write-back, after the last point, puts it in the 1 × 1 result
  array, which the three host lines after the region reshape to a scalar and divide by the constant count.
-/
import proofs.«177686_j58935541235978_1_alg».proof.Proof.KBody
import proofs.«177686_j58935541235978_1_alg».proof.Proof.KPay
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

theorem hz : (![0, 0] : Fin 2 → Nat) = fun _ => 0 := funext fun a => by fin_cases a <;> rfl

/-! ## What the storing cases leave, as payloads over the loaded blocks (any float instance) -/

/-- An accumulating point leaves the accumulating store's payload over the four loaded column blocks and the running contents. -/
theorem outAcc_eq (c : Dev nD) (i : grid0.Coords) (a2 : Memref sig .tc .vmem S32x2048 .f32) (h2 : a2.IsWhole)
    (a3 : Memref sig .tc .vmem S32x2048 .f32) (h3 : a3.IsWhole) (a4 : Memref sig .tc .vmem S1x1 .f32) (h4 : a4.IsWhole)
    (hc1 : ¬k0_cond1 i = 1#1) (hc2 : k0_cond2 i = 1#1) (x0 x1 : Vec F S32x2048 .f32) (xo : Vec F S1x1 .f32) :
    outAcc c i a2 h2 a3 h3 a4 h4 hc1 hc2 x0 x1 xo
      = k0_pay2 i (View.ld x0 (Rect.unit (s := S32x2048) (k0_off1 i) S32x128.size (k0_off1_inb i hc2)))
          (View.ld x1 (Rect.unit (s := S32x2048) (k0_off1 i) S32x128.size (k0_off1_inb i hc2)))
          (View.ld x0 (Rect.unit (s := S32x2048) (k0_off2 i) S32x128.size (k0_off2_inb i hc2)))
          (View.ld x1 (Rect.unit (s := S32x2048) (k0_off2 i) S32x128.size (k0_off2_inb i hc2))) xo := by
  unfold outAcc
  rw [View.read_writes_eq_canon _ _ _ (coverAcc c i a2 h2 a3 h3 a4 h4 hc1 hc2 x0 x1 xo)]
  unfold runAcc
  dsimp only
  rw [View.canon_unit_zero hz]
  simp only [View.readAt_eq_ld, h2.read_unread, h3.read_unread, h4.read_unread, View.ld_unit_zero (S := S1x1) hz]

/-- The first point leaves the same payload over the reset block. -/
theorem outFirst_eq (c : Dev nD) (i : grid0.Coords) (a2 : Memref sig .tc .vmem S32x2048 .f32) (h2 : a2.IsWhole)
    (a3 : Memref sig .tc .vmem S32x2048 .f32) (h3 : a3.IsWhole) (a4 : Memref sig .tc .vmem S1x1 .f32) (h4 : a4.IsWhole)
    (hc1 : k0_cond1 i = 1#1) (hc2 : k0_cond2 i = 1#1) (x0 x1 : Vec F S32x2048 .f32) :
    outFirst c i a2 h2 a3 h3 a4 h4 hc1 hc2 x0 x1
      = k0_pay2 i (View.ld x0 (Rect.unit (s := S32x2048) (k0_off1 i) S32x128.size (k0_off1_inb i hc2)))
          (View.ld x1 (Rect.unit (s := S32x2048) (k0_off1 i) S32x128.size (k0_off1_inb i hc2)))
          (View.ld x0 (Rect.unit (s := S32x2048) (k0_off2 i) S32x128.size (k0_off2_inb i hc2)))
          (View.ld x1 (Rect.unit (s := S32x2048) (k0_off2 i) S32x128.size (k0_off2_inb i hc2))) (k0_pay1 (F := F)) := by
  unfold outFirst
  rw [View.read_writes_eq_canon _ _ _ (coverFirst c i a2 h2 a3 h3 a4 h4 hc1 hc2 x0 x1)]
  unfold runFirst
  dsimp only
  sl_unfold_words
  rw [View.canon_cons_unit_zero (S := S1x1) hz, View.readCov_unit_zero (S := S1x1) _ hz]
  simp only [View.readAt_eq_ld, h2.read_unread, h3.read_unread]

variable (m : (ℓ : Loc nD τ sig) → Buf (Elt F) ℓ)

/-- Each input window's block is the whole argument array. -/
theorem iblk0_eq (c : Dev nD) (t : Fin cfg0.N) : (iblk m c 0 t : Vec F S32x2048 .f32) = m ((c : Thread nD τ).loc main_arg0) := by
  unfold iblk
  have hz' : (fun a => win0_0.index t a * main_arg0.ty.shape.size a) = fun _ => 0 := funext fun a => by fin_cases a <;> rfl
  exact Memref.read_access_unit_zero (Elt F) main_arg0 hz' (fun a => by rw [congrFun hz' a]; simp) _
theorem iblk1_eq (c : Dev nD) (t : Fin cfg0.N) : (iblk m c 1 t : Vec F S32x2048 .f32) = m ((c : Thread nD τ).loc main_arg1) := by
  unfold iblk
  have hz' : (fun a => win0_1.index t a * main_arg1.ty.shape.size a) = fun _ => 0 := funext fun a => by fin_cases a <;> rfl
  exact Memref.read_access_unit_zero (Elt F) main_arg1 hz' (fun a => by rw [congrFun hz' a]; simp) _

/-! ## At the extended reals: the accumulator holds the running total -/

section AtIdeal

variable (mI : (ℓ : Loc nD τ sig) → Buf (Elt Ideal) ℓ)

/-- The difference array outputs − targets of core `c`'s two argument arrays. -/
abbrev dM (c : Dev nD) : Fin 32 → Fin 2048 → EReal :=
  Cert.Pairs.dOf (mI ((c : Thread nD τ).loc main_arg0)) (mI ((c : Thread nD τ).loc main_arg1))

/-- The column offsets the body computes at a point are 128 times its tile row and tile column. -/
theorem off1_eq : ∀ t : Fin cfg0.N, k0_off1 (grid0.coords t) = ![0, 128 * (t.val / 16)] :=
  (by decide +kernel : ∀ t : Fin grid0.N, k0_off1 (grid0.coords t) = ![0, 128 * (t.val / 16)])
theorem off2_eq : ∀ t : Fin cfg0.N, k0_off2 (grid0.coords t) = ![0, 128 * (t.val % 16)] :=
  (by decide +kernel : ∀ t : Fin grid0.N, k0_off2 (grid0.coords t) = ![0, 128 * (t.val % 16)])

/-- A 32 × 128 column block loaded at column offset `k`, read at `(b, p)`: the array at `(b, k + p)`. -/
theorem ld_cols (X : Vec Ideal S32x2048 .f32) (off : Fin 2 → Nat) (k : ℕ) (hoff : off = ![0, k])
    (inb : ∀ a, off a + S32x128.size a ≤ S32x2048.size a) (b : Fin 32) (p : Fin 128) (hk : k + p.val < 2048) :
    View.ld X (Rect.unit (s := S32x2048) off S32x128.size inb) (ix2 b p) = X (ix2 b ⟨k + p.val, hk⟩) := by
  subst hoff
  show X _ = X _
  congr 1
  funext a
  apply Fin.ext
  match a with
  | ⟨0, _⟩ => show 0 + 1 * b.val = b.val; omega
  | ⟨1, _⟩ => show k + 1 * p.val = k + p.val; omega

/-- The accumulating payload at a grid point over the whole argument arrays: the accumulator plus the point's tile sum. -/
theorem tile_eq (c : Dev nD) (t : Fin cfg0.N) (hc2 : k0_cond2 (grid0.coords t) = 1#1) (xo : Vec Ideal S1x1 .f32) (y : S1x1.Idx) :
    k0_pay2 (F := Ideal) (grid0.coords t)
        (View.ld (iblk mI c 0 t) (Rect.unit (s := S32x2048) (k0_off1 (grid0.coords t)) S32x128.size (k0_off1_inb (grid0.coords t) hc2)))
        (View.ld (iblk mI c 1 t) (Rect.unit (s := S32x2048) (k0_off1 (grid0.coords t)) S32x128.size (k0_off1_inb (grid0.coords t) hc2)))
        (View.ld (iblk mI c 0 t) (Rect.unit (s := S32x2048) (k0_off2 (grid0.coords t)) S32x128.size (k0_off2_inb (grid0.coords t) hc2)))
        (View.ld (iblk mI c 1 t) (Rect.unit (s := S32x2048) (k0_off2 (grid0.coords t)) S32x128.size (k0_off2_inb (grid0.coords t) hc2))) xo y
      = xo y + Cert.Pairs.blockSum (dM mI c) (Cert.Pairs.rowOf t.val) (Cert.Pairs.colOf t.val) := by
  have hN : t.val < 256 := lt_of_lt_of_eq t.isLt (show cfg0.N = 256 from N_0)
  have hr : (Cert.Pairs.rowOf t.val).val = t.val / 16 := by show t.val / 16 % 16 = t.val / 16; omega
  have hcl : (Cert.Pairs.colOf t.val).val = t.val % 16 := rfl
  rw [pay2_apply, iblk0_eq, iblk1_eq]
  congr 1
  unfold Cert.Pairs.blockSum
  refine Finset.sum_congr rfl fun b _ => Finset.sum_congr rfl fun p _ => Finset.sum_congr rfl fun q _ => ?_
  have hp : 128 * (t.val / 16) + p.val < 2048 := by have := p.isLt; omega
  have hq : 128 * (t.val % 16) + q.val < 2048 := by have := q.isLt; omega
  rw [ld_cols _ _ _ (off1_eq t) _ b p hp, ld_cols _ _ _ (off1_eq t) _ b p hp,
    ld_cols _ _ _ (off2_eq t) _ b q hq, ld_cols _ _ _ (off2_eq t) _ b q hq,
    (coords_val t).1, (coords_val t).2]
  unfold Cert.Pairs.pairTerm
  have e1 : Cert.Pairs.colIdx (Cert.Pairs.rowOf t.val) p = ⟨128 * (t.val / 16) + p.val, hp⟩ := Fin.ext (by show 128 * (Cert.Pairs.rowOf t.val).val + p.val = _; rw [hr])
  have e2 : Cert.Pairs.colIdx (Cert.Pairs.colOf t.val) q = ⟨128 * (t.val % 16) + q.val, hq⟩ := Fin.ext (by show 128 * (Cert.Pairs.colOf t.val).val + q.val = _; rw [hcl])
  rw [e1, e2]
  rfl

/-- THE RUNNING TOTAL: after point `n` the accumulator's one entry is `chain` of the difference array at `n`. -/
theorem acc_eq_chain (c : Dev nD) : ∀ (n : ℕ) (hn : n < cfg0.N) (y : S1x1.Idx),
    acc mI c n hn y = Cert.Pairs.chain (dM mI c) n
  | 0, hn, y => by
    rw [acc_zero, outFirst_eq]
    refine (tile_eq mI c ⟨0, hn⟩ (c2_zero hn) _ y).trans ?_
    rw [pay1_apply]
    rfl
  | n + 1, hn, y => by
    have hN : n + 1 < 256 := lt_of_lt_of_eq hn (show cfg0.N = 256 from N_0)
    have hiff : Cert.Pairs.rowOf (n + 1) ≤ Cert.Pairs.colOf (n + 1) ↔ (n + 1) / 16 ≤ (n + 1) % 16 := by
      show (n + 1) / 16 % 16 ≤ (n + 1) % 16 ↔ _
      rw [Nat.mod_eq_of_lt (by omega)]
    by_cases h2 : k0_cond2 (grid0.coords ⟨n + 1, hn⟩) = 1#1
    · rw [acc_live mI c n hn h2, outAcc_eq]
      refine (tile_eq mI c ⟨n + 1, hn⟩ h2 _ y).trans ?_
      rw [acc_eq_chain c n]
      show _ = if _ then _ else _
      rw [if_pos (hiff.mpr ((c2_iff ⟨n + 1, hn⟩).mp h2))]
    · rw [acc_idle mI c n hn h2, acc_eq_chain c n]
      show _ = if _ then _ else _
      rw [if_neg fun h => h2 ((c2_iff ⟨n + 1, hn⟩).mpr (hiff.mp h))]

end AtIdeal

end Cert.KernelIdeal.Hand

end
-- ==== Proof.PairSum.lean ====
/-
  The running total over the grid is the whole sum (see PairSpec.lean).

  The argument, in order:
  * the running total after grid point `n` is the sum, over the grid points `t ≤ n`, of the tile sums of the tiles on or
    above the diagonal (`chain_eq_sum`);
  * a tile strictly below the diagonal has tile sum zero, since each of its pairs has `Q < P` and so a zero indicator
    (`blockSum_eq_zero`); the restriction to tiles on or above the diagonal may therefore be dropped;
  * the 256 grid points are the pairs (tile row, tile column) (`sum_grid`);
  * the 2048 columns are the pairs (tile, column within the tile) (`sum_cols`), once for `P` and once for `Q`;
  * finite sums over an additive commutative monoid may be interchanged.
-/
import proofs.«177686_j58935541235978_1_alg».proof.Proof.PairSpec
import Mathlib.Algebra.BigOperators.Fin
import Mathlib.Logic.Equiv.Fin.Basic

noncomputable section

open scoped BigOperators

namespace Cert.Pairs

/-- A sum over `Fin (m * n)` is the double sum over the pairs (quotient, remainder): `t = n * i + j`. -/
theorem sum_fin_mul {M : Type*} [AddCommMonoid M] (m n : ℕ) (g : Fin (m * n) → M) :
    ∑ t : Fin (m * n), g t = ∑ i : Fin m, ∑ j : Fin n, g (finProdFinEquiv (i, j)) := by
  rw [← Equiv.sum_comp finProdFinEquiv, Fintype.sum_prod_type]

/-- The 2048 columns are the pairs (tile `i`, column `p` within the tile), column `128 i + p`. -/
theorem sum_cols {M : Type*} [AddCommMonoid M] (g : Fin 2048 → M) :
    ∑ P : Fin 2048, g P = ∑ i : Fin 16, ∑ p : Fin 128, g (colIdx i p) := by
  have h : ∑ P : Fin 2048, g P = ∑ i : Fin 16, ∑ p : Fin 128, g (finProdFinEquiv (i, p)) :=
    sum_fin_mul 16 128 g
  rw [h]
  refine Finset.sum_congr rfl fun i _ => Finset.sum_congr rfl fun p _ => ?_
  congr 1
  apply Fin.ext
  simp only [colIdx, finProdFinEquiv_apply_val]
  omega

/-- The 256 grid points, in row-major order, are the pairs (tile row `i`, tile column `j`), grid point `16 i + j`. -/
theorem sum_grid {M : Type*} [AddCommMonoid M] (f : Fin 16 → Fin 16 → M) :
    ∑ t ∈ Finset.range 256, f (rowOf t) (colOf t) = ∑ i : Fin 16, ∑ j : Fin 16, f i j := by
  rw [Finset.sum_range]
  have h : ∑ t : Fin 256, f (rowOf t.val) (colOf t.val)
      = ∑ i : Fin 16, ∑ j : Fin 16,
          f (rowOf (finProdFinEquiv (i, j) : Fin (16 * 16)).val) (colOf (finProdFinEquiv (i, j) : Fin (16 * 16)).val) :=
    sum_fin_mul 16 16 (fun t => f (rowOf t.val) (colOf t.val))
  rw [h]
  refine Finset.sum_congr rfl fun i _ => Finset.sum_congr rfl fun j _ => ?_
  have hi := i.isLt
  have hj := j.isLt
  have hr : rowOf (finProdFinEquiv (i, j) : Fin (16 * 16)).val = i := by
    apply Fin.ext
    simp only [rowOf, finProdFinEquiv_apply_val]
    omega
  have hc : colOf (finProdFinEquiv (i, j) : Fin (16 * 16)).val = j := by
    apply Fin.ext
    simp only [colOf, finProdFinEquiv_apply_val]
    omega
  rw [hr, hc]

/-- The running total after grid point `n` is the sum over the grid points `t ≤ n` of the tile sums of the tiles on or
    above the diagonal. -/
theorem chain_eq_sum (d : Fin 32 → Fin 2048 → EReal) (n : ℕ) :
    chain d n = ∑ t ∈ Finset.range (n + 1),
      (if rowOf t ≤ colOf t then blockSum d (rowOf t) (colOf t) else 0) := by
  induction n with
  | zero =>
    have h0 : rowOf 0 ≤ colOf 0 := by
      simp only [rowOf, colOf, Fin.mk_le_mk]
      omega
    rw [Finset.sum_range_one, if_pos h0]
    show 0 + blockSum d (rowOf 0) (colOf 0) = blockSum d (rowOf 0) (colOf 0)
    rw [zero_add]
  | succ n ih =>
    rw [Finset.sum_range_succ, ← ih]
    by_cases h : rowOf (n + 1) ≤ colOf (n + 1)
    · rw [if_pos h]
      simp only [chain, if_pos h]
    · rw [if_neg h, add_zero]
      simp only [chain, if_neg h]

/-- A tile strictly below the diagonal has tile sum zero: each of its pairs has `Q < P`, so the indicator vanishes and the
    term is a product with zero. -/
theorem blockSum_eq_zero (d : Fin 32 → Fin 2048 → EReal) {i j : Fin 16} (h : j < i) : blockSum d i j = 0 := by
  unfold blockSum
  refine Finset.sum_eq_zero fun b _ => Finset.sum_eq_zero fun p _ => Finset.sum_eq_zero fun q _ => ?_
  have hu : upper (colIdx i p).val (colIdx j q).val = 0 := by
    unfold upper
    rw [if_neg]
    simp only [colIdx]
    have hp := p.isLt
    have hq := q.isLt
    have hji : j.val < i.val := h
    omega
  unfold pairTerm
  rw [hu, mul_zero]

/-- The restriction to the tiles on or above the diagonal changes nothing. -/
theorem ite_blockSum (d : Fin 32 → Fin 2048 → EReal) (i j : Fin 16) :
    (if i ≤ j then blockSum d i j else 0) = blockSum d i j := by
  by_cases h : i ≤ j
  · rw [if_pos h]
  · rw [if_neg h]
    exact (blockSum_eq_zero d (not_le.mp h)).symm

/-- One batch row's sum over all ordered pairs of columns, split by the tiles of `P` and of `Q`. -/
theorem sum_pairs_tiles (d : Fin 32 → Fin 2048 → EReal) (b : Fin 32) :
    ∑ P : Fin 2048, ∑ Q : Fin 2048, pairTerm d b P Q
      = ∑ i : Fin 16, ∑ j : Fin 16, ∑ p : Fin 128, ∑ q : Fin 128, pairTerm d b (colIdx i p) (colIdx j q) := by
  rw [sum_cols]
  refine Finset.sum_congr rfl fun i _ => ?_
  calc ∑ p : Fin 128, ∑ Q : Fin 2048, pairTerm d b (colIdx i p) Q
      = ∑ p : Fin 128, ∑ j : Fin 16, ∑ q : Fin 128, pairTerm d b (colIdx i p) (colIdx j q) :=
        Finset.sum_congr rfl fun p _ => sum_cols _
    _ = ∑ j : Fin 16, ∑ p : Fin 128, ∑ q : Fin 128, pairTerm d b (colIdx i p) (colIdx j q) :=
        Finset.sum_comm

/-- After the last of the 256 grid points the running total is the sum over every batch row and every ordered pair of
    columns: the tiles partition the pairs, and a tile strictly below the diagonal holds only pairs with `Q < P`,
    whose indicator is zero. -/
theorem chain_eq_total (d : Fin 32 → Fin 2048 → EReal) : chain d 255 = total d := by
  have h := chain_eq_sum d 255
  simp only [ite_blockSum] at h
  rw [h]
  have hg : ∑ t ∈ Finset.range (255 + 1), blockSum d (rowOf t) (colOf t)
      = ∑ i : Fin 16, ∑ j : Fin 16, blockSum d i j := sum_grid (fun i j => blockSum d i j)
  rw [hg]
  unfold blockSum total
  calc ∑ i : Fin 16, ∑ j : Fin 16, ∑ b : Fin 32, ∑ p : Fin 128, ∑ q : Fin 128,
          pairTerm d b (colIdx i p) (colIdx j q)
      = ∑ i : Fin 16, ∑ b : Fin 32, ∑ j : Fin 16, ∑ p : Fin 128, ∑ q : Fin 128,
          pairTerm d b (colIdx i p) (colIdx j q) :=
        Finset.sum_congr rfl fun i _ => Finset.sum_comm
    _ = ∑ b : Fin 32, ∑ i : Fin 16, ∑ j : Fin 16, ∑ p : Fin 128, ∑ q : Fin 128,
          pairTerm d b (colIdx i p) (colIdx j q) :=
        Finset.sum_comm
    _ = ∑ b : Fin 32, ∑ P : Fin 2048, ∑ Q : Fin 2048, pairTerm d b P Q :=
        Finset.sum_congr rfl fun b _ => (sum_pairs_tiles d b).symm

end Cert.Pairs

end
-- ==== Proof.KResult.lean ====
/-
  The kernel program's result over the extended reals.

  The accumulator's window is written back once, after the last of the 256 grid points, and its 1 × 1 block is the
  whole result array of the region: so that array ends holding the running total after the last point. The host lines
  after the region reshape it to a scalar and divide it by the constant pair count.
-/
import proofs.«177686_j58935541235978_1_alg».proof.Proof.KValue
import proofs.«177686_j58935541235978_1_alg».proof.Proof.PairSum

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (mI : (ℓ : Loc nD τ sig) → Buf (Elt Ideal) ℓ) (ρ : Dev nD → PrngReg)

/-- The last grid point. -/
abbrev tLast : Fin cfg0.N := ⟨255, by rw [show cfg0.N = 256 from N_0]; decide⟩

/-- The region's 1 × 1 result array: the running total after the last point. -/
abbrev regionOut (c : Dev nD) : Buf (Elt Ideal) ((c : Thread nD τ).loc main_v0) := fun _ => Cert.Pairs.chain (dM mI c) 255

/-- The one write-back, at the last point, writes the running total: the block at index (0, 0) of the 1 × 1 array is the array. -/
theorem flushed_eq (c : Dev nD) (t : Fin cfg0.N) (hf : (cfg0.win 2).flush t = true) :
    (dats mI 0 c).flushed 2 t = ((cfg0.win 2).blk t).view.read (Elt Ideal) (regionOut mI c) := by
  have hN : cfg0.N = 256 := N_0
  have h : t.val = 255 := by have := (flush0_2 t).mp hf; have := t.isLt; omega
  obtain rfl : t = tLast := Fin.ext h
  show (cfg0.win 2).cut (grid0.coords tLast) ((dats mI 0 c).after 2 tLast) = _
  rw [after2]
  have hz' : (fun a => win0_2.index tLast a * main_v0.ty.shape.size a) = fun _ => 0 := funext fun a => by fin_cases a <;> rfl
  refine Eq.trans ?_ (Memref.read_access_unit_zero (Elt Ideal) main_v0 hz' (fun a => by rw [congrFun hz' a]; simp) (regionOut mI c)).symm
  funext y
  exact acc_eq_chain mI c 255 _ y

/-- So the region's result array ends holding the running total after the last point. -/
theorem final_o (c : Dev nD) : (dats mI 0 c).arrAt 2 cfg0.N = regionOut mI c :=
  (dats mI 0 c).arrAt_eq_of_cover 2 (regionOut mI c) (flushed_eq mI c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The program's result: the running total after the last point over the constant count. -/
abbrev result (c : Dev nD) : Buf (Elt Ideal) ((c : Thread nD τ).loc main_v2) :=
  fun _ => Ideal.div (Cert.Pairs.chain (dM mI c) 255) (Ideal.ofBits .f32 0x4C7FE000#32)

/-- The host lines after the region: reshape the 1 × 1 array to a scalar, divide by the constant. -/
theorem tail_eq (c : Dev nD) : Pipeline.afterTail₀ cfgs (dats mI) 0 (V0 mI) [hostOps1] c main_v2 = result mI c := by
  unfold Pipeline.afterTail₀
  show StableHlo.after hostOps1 _ (Proc.devRef .tc main_v2) = _
  after_results
  rw [show Pipeline.withArrays (cfgs 0).spec c (V0 mI c) (fun w => (dats mI 0 c).arrAt w (cfgs 0).N) (Proc.tc.devRef main_v0)
      = regionOut mI c from
    (Pipeline.withArrays_arr spec0 launch0.win.arr_inj c (V0 mI c) (fun w => (dats mI 0 c).arrAt w (cfgs 0).N) 2).trans (final_o mI c)]
  funext i
  rfl

/-- THE VALUE RUN: every weakly fair execution terminates with the result at the running total over the count, the
    two argument arrays unchanged. -/
theorem run : θ_run defs (onTc (τ := τ) (main (F := Ideal))) ⟨mI, fun _ => 0, ρ⟩ fun r => ∀ c : Dev nD,
      r.2.mem ((c.tc : Thread nD τ).loc main_v2) = result mI c
      ∧ r.2.mem ((c.tc : Thread nD τ).loc main_arg0) = mI ((c.tc : Thread nD τ).loc main_arg0)
      ∧ r.2.mem ((c.tc : Thread nD τ).loc main_arg1) = mI ((c.tc : Thread nD τ).loc main_arg1) :=
  (θ_run defs _ _).mono (fun _ h c => ⟨((h c).2 main_v2 (by decide)).trans (tail_eq mI c),
      ((h c).1 0).trans (((dats mI 0 c).arrAt_in 0 rfl _).trans ((A_eq mI c 0).trans (V_main_arg0 mI c))),
      ((h c).1 1).trans (((dats mI 0 c).arrAt_in 1 rfl _).trans ((A_eq mI c 1).trans (V_main_arg1 mI c)))⟩)
    (run_main mI ρ)

end Cert.KernelIdeal.Hand

end
-- ==== Proof.RefValue.lean ====
/-
  The reference program's result, read over the extended reals: the whole masked sum of squared pairwise differences,
  divided by the pair count.

  The reference forms `d = outputs − targets`, broadcasts it to the 32 × 2048 × 2048 cube of differences
  `d b P − d b Q`, squares it, multiplies by the strict-upper-triangle mask (built as "zero where `P ≥ Q`, one
  elsewhere"), sums the whole cube from zero, and divides by the constant count.
-/
import proofs.«177686_j58935541235978_1_alg».proof.Proof.PairSpec
import proofs.«177686_j58935541235978_1_alg».proof.Proof.Gen.ReferenceIdeal.Read
import Idealize.ShloMosaic.Lib.ValueIdx
import Idealize.ShloMosaic.Lib.StableHlo.Predicate
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read

/-! ## A sum over a rank-3 index set is the triple sum over its coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The mask's two words -/

/-- The f32 word `0x3F800000` (sign 0, exponent 127, significand 0) is the extended real `1`. -/
theorem ofBits_one_f32 : Ideal.ofBits .f32 0x3F800000#32 = 1 := by
  simp [Ideal.ofBits, Ideal.ieee]
  rw [← EReal.coe_mul, ← EReal.coe_one]
  congr 1
  norm_num

/-- The mask at `(P, Q)`, both below 2048: the signed comparison `P + 0 ≥ Q` of the two small words is the comparison
    of the naturals, so the select is zero when `Q ≤ P` and one when `P < Q`: the strict-upper-triangle indicator. -/
theorem mask_eq (P Q : ℕ) (hP : P < 2048) (hQ : Q < 2048) :
    Scalar.select (IntOp.cmpi .sge (IntOp.addi (BitVec.ofNat 32 P) 0#32) (BitVec.ofNat 32 Q)) (0 : EReal) 1
      = Cert.Pairs.upper P Q := by
  have hadd : IntOp.addi (BitVec.ofNat 32 P) 0#32 = BitVec.ofNat 32 P := by
    unfold IntOp.addi; exact BitVec.add_zero _
  have hPn : (BitVec.ofNat 32 P).toNat = P := by rw [BitVec.toNat_ofNat]; omega
  have hQn : (BitVec.ofNat 32 Q).toNat = Q := by rw [BitVec.toNat_ofNat]; omega
  have hiff := StableHlo.Predicate.sge_iff_toNat (a := BitVec.ofNat 32 P) (b := BitVec.ofNat 32 Q)
    (by rw [hPn]; omega) (by rw [hQn]; omega)
  rw [hPn, hQn] at hiff
  rw [hadd]
  unfold Cert.Pairs.upper
  by_cases h : Q ≤ P
  · rw [hiff.mpr h, select_one, if_neg (by omega)]
  · rw [eq_zero_of_ne_one (fun hc => h (hiff.mp hc)), select_zero, if_pos (by omega)]

/-! ## One element of the cube -/

/-- The cube's element at `(b, P, Q)` is that ordered pair's contribution. -/
theorem elem_eq (x0 x1 : (⟨S32x2048, .f32⟩ : BufTy).Contents (Elt Ideal)) (b : Fin 32) (P Q : Fin 2048) :
    val_main_v11 (F := Ideal) x0 x1 (ix3 b P Q) = Cert.Pairs.pairTerm (Cert.Pairs.dOf x0 x1) b P Q := by
  have hL : idx_main_v1 (idx_main_v3 (ix3 b P Q)) = ix2 b P := by
    funext a; match a with | ⟨0, _⟩ => rfl | ⟨1, _⟩ => rfl
  have hR : idx_main_v2 (idx_main_v4 (ix3 b P Q)) = ix2 b Q := by
    funext a; match a with | ⟨0, _⟩ => rfl | ⟨1, _⟩ => rfl
  have hM : idx_main_v9 (idx_main_v10 (ix3 b P Q)) = ix2 P Q := by
    funext a; match a with | ⟨0, _⟩ => rfl | ⟨1, _⟩ => rfl
  have hmask : val_main_v10 (F := Ideal) (ix3 b P Q) = Cert.Pairs.upper P.val Q.val := by
    rw [val_main_v10_apply, val_main_v9_apply, hM, val_main_v7_apply, val_main_call0_v4_apply, val_main_call0_v2_apply,
      val_main_call0_v0_apply, val_main_call0_v1_apply, val_main_call0_c_apply, val_main_call0_v3_apply,
      val_main_call0_v5_apply, val_main_call0_cst_apply, val_main_v6_apply, val_main_cst_apply, Ideal.ofBits_def,
      Ideal.ofBits_def, Ideal.ofBits_zero_f32, ofBits_one_f32]
    exact mask_eq P.val Q.val P.isLt Q.isLt
  rw [val_main_v11_apply, val_main_v8_apply, val_main_v5_apply, val_main_v3_apply, val_main_v4_apply,
    val_main_v1_apply, val_main_v2_apply, hL, hR, val_main_v0_apply, val_main_v0_apply, hmask]
  rfl

/-- The reference's result is the whole sum over the count. -/
theorem ref_eq (x0 x1 : (⟨S32x2048, .f32⟩ : BufTy).Contents (Elt Ideal)) :
    val_main_v13 (F := Ideal) x0 x1
      = fun _ => Ideal.div (Cert.Pairs.total (Cert.Pairs.dOf x0 x1)) (Ideal.ofBits .f32 0x4C7FE000#32) := by
  funext i
  rw [val_main_v13_apply, val_main_v12_apply, val_main_cst_0_apply, val_main_cst_1_apply, Ideal.hostDivf_def,
    Ideal.ofBits_def, Ideal.ofBits_def, Ideal.ofBits_zero_f32, zero_add, sum_idx3]
  congr 1
  exact Finset.sum_congr rfl fun b _ => Finset.sum_congr rfl fun P _ => Finset.sum_congr rfl fun Q _ =>
    elem_eq x0 x1 b P Q

end Cert.ReferenceIdeal.RefValue

end
-- ==== Proof.lean ====
/-
  The certificate: a pairwise squared-difference loss, tiled, against its one-line reference.

  For `d = outputs − targets` (32 × 2048) both programs compute `Σ_b Σ_{P<Q} (d b P − d b Q)²` divided by the number
  of pairs. The reference sums the whole 32 × 2048 × 2048 cube of masked squares at once. The kernel walks a 16 × 16
  grid of 128 × 128 tiles of column pairs, skips the tiles strictly below the diagonal (there every pair has Q < P and
  the mask is zero), and adds each remaining tile's masked sum to a 1 × 1 accumulator that it resets at the first
  point; the host divides the accumulator by the count. Over the extended reals a masked-out term is `x · 0 = 0`
  whatever `x` is, and finite sums may be regrouped freely, so the two results agree for every input (the
  precondition is not used).

    frame_Kernel, frame_KernelIdeal — the body's triple in each of its three control cases, the accumulator's contents
      point by point, the body obligation and the launch: KRuns / KBody (and the same text for the program as printed).
    frame_ReferenceIdeal — the generated run of the host program, its result dropped.
    preserves_Kernel_KernelIdeal — the ideal pass rewrote nothing: `True`.
    algebraic_KernelIdeal_ReferenceIdeal — the kernel's result is the running total after the last tile over the count
      (KValue, KResult over KPay); the reference's is the whole sum over the count (RefValue); the running total is
      the whole sum (PairSum).
-/
import proofs.«177686_j58935541235978_1_alg».proof.Defs
import proofs.«177686_j58935541235978_1_alg».proof.Proof.Gen.Kernel
import proofs.«177686_j58935541235978_1_alg».proof.Proof.Gen.KernelIdeal
import proofs.«177686_j58935541235978_1_alg».proof.Proof.Gen.ReferenceIdeal
import proofs.«177686_j58935541235978_1_alg».proof.Proof.Gen.Pre_finite_inputs
import proofs.«177686_j58935541235978_1_alg».proof.Proof.Gen.ReferenceIdeal.Run
import proofs.«177686_j58935541235978_1_alg».proof.Proof.Gen.ReferenceIdeal.Read
import proofs.«177686_j58935541235978_1_alg».proof.Proof.KBodyBits
import proofs.«177686_j58935541235978_1_alg».proof.Proof.KResult
import proofs.«177686_j58935541235978_1_alg».proof.Proof.RefValue
import proofs.«177686_j58935541235978_1_alg».proof.Proof.PairSum
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the whole masked sum of squared pairwise differences over the count: the kernel's running
    total after the last tile is that sum. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_eq, (hagree c).1, (hagree c).2,
    ← Cert.Pairs.chain_eq_total]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
